-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x3 : Shape := ⟨3, ![2, 4096, 3]⟩
abbrev S2x512x3 : Shape := ⟨3, ![2, 512, 3]⟩
abbrev S2x4096x32 : Shape := ⟨3, ![2, 4096, 32]⟩
abbrev S_ : Shape := ⟨0, ![]⟩

class Facts : Prop where
  bcast_S_S2x4096x3 : S_.BroadcastsInDim S2x4096x3 (![] : Fin 0 → Fin S2x4096x3.rank)
  reducesTo_S2x4096x3_S_d0_1_2 : S2x4096x3.ReducesTo [0, 1, 2] S_
  h_S_ : 0 < S_.numel
  bcast_S_S2x512x3 : S_.BroadcastsInDim S2x512x3 (![] : Fin 0 → Fin S2x512x3.rank)
  reducesTo_S2x512x3_S_d0_1_2 : S2x512x3.ReducesTo [0, 1, 2] S_
  bcast_S_S2x4096x32 : S_.BroadcastsInDim S2x4096x32 (![] : Fin 0 → Fin S2x4096x32.rank)
  reducesTo_S2x4096x32_S_d0_1_2 : S2x4096x32.ReducesTo [0, 1, 2] S_

variable [Facts]

def fn {F : FTy → Type} [FloatOps F] (main_arg0 : FVec F S2x4096x3 .f32) (main_arg1 : FVec F S2x512x3 .f32) (main_arg2 : FVec F S2x4096x32 .f32) : IVec S_ 1 :=
  let main_v0 : FVec F S2x4096x3 .f32 := Host.absf main_arg0
  let main_cst : FVec F S_ .f32 := constant S_ .f32 0x7F800000#32
  let main_v1 : FVec F S2x4096x3 .f32 := broadcastInDim S2x4096x3 ![] bcast_S_S2x4096x3 main_cst
  let main_v2 : IVec S2x4096x3 1 := cmpf .olt main_v0 main_v1
  let main_c : IVec S_ 1 := constantI S_ 1 1#1
  let main_v3 : IVec S_ 1 := (fun x v => Host.reduce IntOp.andi x v reducesTo_S2x4096x3_S_d0_1_2 h_S_) main_v2 main_c
  let main_v4 : FVec F S2x512x3 .f32 := Host.absf main_arg1
  let main_cst_0 : FVec F S_ .f32 := constant S_ .f32 0x7F800000#32
  let main_v5 : FVec F S2x512x3 .f32 := broadcastInDim S2x512x3 ![] bcast_S_S2x512x3 main_cst_0
  let main_v6 : IVec S2x512x3 1 := cmpf .olt main_v4 main_v5
  let main_c_1 : IVec S_ 1 := constantI S_ 1 1#1
  let main_v7 : IVec S_ 1 := (fun x v => Host.reduce IntOp.andi x v reducesTo_S2x512x3_S_d0_1_2 h_S_) main_v6 main_c_1
  let main_v8 : IVec S_ 1 := andi main_v3 main_v7
  let main_v9 : FVec F S2x4096x32 .f32 := Host.absf main_arg2
  let main_cst_2 : FVec F S_ .f32 := constant S_ .f32 0x7F800000#32
  let main_v10 : FVec F S2x4096x32 .f32 := broadcastInDim S2x4096x32 ![] bcast_S_S2x4096x32 main_cst_2
  let main_v11 : IVec S2x4096x32 1 := cmpf .olt main_v9 main_v10
  let main_c_3 : IVec S_ 1 := constantI S_ 1 1#1
  let main_v12 : IVec S_ 1 := (fun x v => Host.reduce IntOp.andi x v reducesTo_S2x4096x32_S_d0_1_2 h_S_) main_v11 main_c_3
  let main_v13 : IVec S_ 1 := andi main_v8 main_v12
  main_v13
-- ==== Kernel.lean ====
abbrev S2x4096x3 : Shape := ⟨3, ![2, 4096, 3]⟩
abbrev S2x512x3 : Shape := ⟨3, ![2, 512, 3]⟩
abbrev S2x4096x32 : Shape := ⟨3, ![2, 4096, 32]⟩
abbrev S2x3x4096 : Shape := ⟨3, ![2, 3, 4096]⟩
abbrev S2x32x4096 : Shape := ⟨3, ![2, 32, 4096]⟩
abbrev S2x512x32 : Shape := ⟨3, ![2, 512, 32]⟩
abbrev S1x512x3 : Shape := ⟨3, ![1, 512, 3]⟩
abbrev S1x3x4096 : Shape := ⟨3, ![1, 3, 4096]⟩
abbrev S1x32x4096 : Shape := ⟨3, ![1, 32, 4096]⟩
abbrev S1x512x32 : Shape := ⟨3, ![1, 512, 32]⟩
abbrev S512x3 : Shape := ⟨2, ![512, 3]⟩
abbrev S3x4096 : Shape := ⟨2, ![3, 4096]⟩
abbrev S32x4096 : Shape := ⟨2, ![32, 4096]⟩
abbrev S512x1 : Shape := ⟨2, ![512, 1]⟩
abbrev S1x4096 : Shape := ⟨2, ![1, 4096]⟩
abbrev S512x4096 : Shape := ⟨2, ![512, 4096]⟩
abbrev S512 : Shape := ⟨1, ![512]⟩
abbrev S4096 : Shape := ⟨1, ![4096]⟩
abbrev S512x32 : Shape := ⟨2, ![512, 32]⟩

abbrev nBuf : Space → Nat
  | .hbm => 6
  | .vmem => 8
  | .smem => 0
  | _ => 0

abbrev bufTy : (tb : Table) → Fin (tcTables nBuf tb) → BufTy
  | .hbm, ⟨0, _⟩ => ⟨S2x4096x3, .f32⟩
  | .hbm, ⟨1, _⟩ => ⟨S2x512x3, .f32⟩
  | .hbm, ⟨2, _⟩ => ⟨S2x4096x32, .f32⟩
  | .hbm, ⟨3, _⟩ => ⟨S2x3x4096, .f32⟩
  | .hbm, ⟨4, _⟩ => ⟨S2x32x4096, .f32⟩
  | .hbm, ⟨5, _⟩ => ⟨S2x512x32, .f32⟩
  | .local _ .vmem, ⟨0, _⟩ => ⟨S1x512x3, .f32⟩
  | .local _ .vmem, ⟨1, _⟩ => ⟨S1x512x3, .f32⟩
  | .local _ .vmem, ⟨2, _⟩ => ⟨S1x3x4096, .f32⟩
  | .local _ .vmem, ⟨3, _⟩ => ⟨S1x3x4096, .f32⟩
  | .local _ .vmem, ⟨4, _⟩ => ⟨S1x32x4096, .f32⟩
  | .local _ .vmem, ⟨5, _⟩ => ⟨S1x32x4096, .f32⟩
  | .local _ .vmem, ⟨6, _⟩ => ⟨S1x512x32, .f32⟩
  | .local _ .vmem, ⟨7, _⟩ => ⟨S1x512x32, .f32⟩
  | _, _ => ⟨S2x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S2x4096x3_S2x3x4096_0_2_1 : S2x4096x3.Transposes [0, 2, 1] S2x3x4096
  transposes_S2x4096x32_S2x32x4096_0_2_1 : S2x4096x32.Transposes [0, 2, 1] S2x32x4096
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  inb_S1x32x4096_S1x32x4096_0_0_0 : ∀ a, (![0, 0, 0] : Fin 3 → Nat) a + S1x32x4096.size a ≤ S1x32x4096.size a
  h_S1x32x4096 : 0 < S1x32x4096.numel
  shapeCasts_S1x32x4096_S32x4096 : S1x32x4096.ShapeCasts S32x4096
  slices_S512x3_o0_0_S512x1 : S512x3.Slices ![0, 0] S512x1
  slices_S512x3_o0_1_S512x1 : S512x3.Slices ![0, 1] S512x1
  slices_S512x3_o0_2_S512x1 : S512x3.Slices ![0, 2] S512x1
  slices_S3x4096_o0_0_S1x4096 : S3x4096.Slices ![0, 0] S1x4096
  slices_S3x4096_o1_0_S1x4096 : S3x4096.Slices ![1, 0] S1x4096
  slices_S3x4096_o2_0_S1x4096 : S3x4096.Slices ![2, 0] S1x4096
  broadcasts_S512x1_S512x4096 : S512x1.Broadcasts S512x4096
  broadcasts_S1x4096_S512x4096 : S1x4096.Broadcasts S512x4096
  reduces_S512x3_S512 : S512x3.Reduces [1] S512
  shapeCasts_S512_S512x1 : S512.ShapeCasts S512x1
  reduces_S3x4096_S4096 : S3x4096.Reduces [0] S4096
  shapeCasts_S4096_S1x4096 : S4096.ShapeCasts S1x4096
  reduces_S512x4096_S512 : S512x4096.Reduces [1] S512
  slices_S32x4096_o0_0_S1x4096 : S32x4096.Slices ![0, 0] S1x4096
  shapeCasts_S1x4096_S1x4096 : S1x4096.ShapeCasts S1x4096
  slices_S32x4096_o1_0_S1x4096 : S32x4096.Slices ![1, 0] S1x4096
  slices_S32x4096_o2_0_S1x4096 : S32x4096.Slices ![2, 0] S1x4096
  slices_S32x4096_o3_0_S1x4096 : S32x4096.Slices ![3, 0] S1x4096
  slices_S32x4096_o4_0_S1x4096 : S32x4096.Slices ![4, 0] S1x4096
  slices_S32x4096_o5_0_S1x4096 : S32x4096.Slices ![5, 0] S1x4096
  slices_S32x4096_o6_0_S1x4096 : S32x4096.Slices ![6, 0] S1x4096
  slices_S32x4096_o7_0_S1x4096 : S32x4096.Slices ![7, 0] S1x4096
  slices_S32x4096_o8_0_S1x4096 : S32x4096.Slices ![8, 0] S1x4096
  slices_S32x4096_o9_0_S1x4096 : S32x4096.Slices ![9, 0] S1x4096
  slices_S32x4096_o10_0_S1x4096 : S32x4096.Slices ![10, 0] S1x4096
  slices_S32x4096_o11_0_S1x4096 : S32x4096.Slices ![11, 0] S1x4096
  slices_S32x4096_o12_0_S1x4096 : S32x4096.Slices ![12, 0] S1x4096
  slices_S32x4096_o13_0_S1x4096 : S32x4096.Slices ![13, 0] S1x4096
  slices_S32x4096_o14_0_S1x4096 : S32x4096.Slices ![14, 0] S1x4096
  slices_S32x4096_o15_0_S1x4096 : S32x4096.Slices ![15, 0] S1x4096
  slices_S32x4096_o16_0_S1x4096 : S32x4096.Slices ![16, 0] S1x4096
  slices_S32x4096_o17_0_S1x4096 : S32x4096.Slices ![17, 0] S1x4096
  slices_S32x4096_o18_0_S1x4096 : S32x4096.Slices ![18, 0] S1x4096
  slices_S32x4096_o19_0_S1x4096 : S32x4096.Slices ![19, 0] S1x4096
  slices_S32x4096_o20_0_S1x4096 : S32x4096.Slices ![20, 0] S1x4096
  slices_S32x4096_o21_0_S1x4096 : S32x4096.Slices ![21, 0] S1x4096
  slices_S32x4096_o22_0_S1x4096 : S32x4096.Slices ![22, 0] S1x4096
  slices_S32x4096_o23_0_S1x4096 : S32x4096.Slices ![23, 0] S1x4096
  slices_S32x4096_o24_0_S1x4096 : S32x4096.Slices ![24, 0] S1x4096
  slices_S32x4096_o25_0_S1x4096 : S32x4096.Slices ![25, 0] S1x4096
  slices_S32x4096_o26_0_S1x4096 : S32x4096.Slices ![26, 0] S1x4096
  slices_S32x4096_o27_0_S1x4096 : S32x4096.Slices ![27, 0] S1x4096
  slices_S32x4096_o28_0_S1x4096 : S32x4096.Slices ![28, 0] S1x4096
  slices_S32x4096_o29_0_S1x4096 : S32x4096.Slices ![29, 0] S1x4096
  slices_S32x4096_o30_0_S1x4096 : S32x4096.Slices ![30, 0] S1x4096
  slices_S32x4096_o31_0_S1x4096 : S32x4096.Slices ![31, 0] S1x4096
  concatenates_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x32_d1 : Shape.Concatenates [S512x1, S512x1, S512x1, S512x1, S512x1, S512x1, S512x1, S512x1, S512x1, S512x1, S512x1, S512x1, S512x1, S512x1, S512x1, S512x1, S512x1, S512x1, S512x1, S512x1, S512x1, S512x1, S512x1, S512x1, S512x1, S512x1, S512x1, S512x1, S512x1, S512x1, S512x1, S512x1] S512x32 1
  inb_S1x512x32_S1x512x32_0_0_0 : ∀ a, (![0, 0, 0] : Fin 3 → Nat) a + S1x512x32.size a ≤ S1x512x32.size a
  h_S1x512x32 : 0 < S1x512x32.numel
  shapeCasts_S1x512x32_S512x32 : S1x512x32.ShapeCasts S512x32
  shapeCasts_S512x32_S1x512x32 : S512x32.ShapeCasts S1x512x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S2x512x3.size a
  hwx0_0 : ∀ i : grid0.Coords, EltTy.bits .f32 = 32 ∨ (Rect.block (s := S2x512x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S2x3x4096.size a
  hwx0_1 : ∀ i : grid0.Coords, EltTy.bits .f32 = 32 ∨ (Rect.block (s := S2x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x4096.size a ≤ S2x32x4096.size a
  hwx0_2 : ∀ i : grid0.Coords, EltTy.bits .f32 = 32 ∨ (Rect.block (s := S2x32x4096) S1x32x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x32.size a ≤ S2x512x32.size a
  hwx0_3 : ∀ i : grid0.Coords, EltTy.bits .f32 = 32 ∨ (Rect.block (s := S2x512x32) S1x512x32.size (cc0_transform_3 i) (hinb0_3 i)).WholeWords (EltTy.packing .f32)

variable [Facts₀]

abbrev win0_0 : Pipeline.Window sig grid0 :=
  Pipeline.Window.ofSpec (Memref.whole main_arg1) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x32x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x4096x3 : Shape := ⟨3, ![2, 4096, 3]⟩
abbrev S2x512x3 : Shape := ⟨3, ![2, 512, 3]⟩
abbrev S2x4096x32 : Shape := ⟨3, ![2, 4096, 32]⟩
abbrev S_ : Shape := ⟨0, ![]⟩
abbrev S2x512 : Shape := ⟨2, ![2, 512]⟩
abbrev S2x512x1 : Shape := ⟨3, ![2, 512, 1]⟩
abbrev S2x4096 : Shape := ⟨2, ![2, 4096]⟩
abbrev S2x1x4096 : Shape := ⟨3, ![2, 1, 4096]⟩
abbrev S2x512x4096 : Shape := ⟨3, ![2, 512, 4096]⟩
abbrev S2x512x4096x1 : Shape := ⟨4, ![2, 512, 4096, 1]⟩
abbrev S2x1x4096x32 : Shape := ⟨4, ![2, 1, 4096, 32]⟩
abbrev S2x512x4096x32 : Shape := ⟨4, ![2, 512, 4096, 32]⟩
abbrev S2x512x32 : Shape := ⟨3, ![2, 512, 32]⟩

abbrev nBuf : Space → Nat
  | .hbm => 42
  | .vmem => 0
  | .smem => 0
  | _ => 0

abbrev bufTy : (tb : Table) → Fin (tcTables nBuf tb) → BufTy
  | .hbm, ⟨0, _⟩ => ⟨S2x4096x3, .f32⟩
  | .hbm, ⟨1, _⟩ => ⟨S2x512x3, .f32⟩
  | .hbm, ⟨2, _⟩ => ⟨S2x4096x32, .f32⟩
  | .hbm, ⟨3, _⟩ => ⟨S2x512x3, .f32⟩
  | .hbm, ⟨4, _⟩ => ⟨S_, .f32⟩
  | .hbm, ⟨5, _⟩ => ⟨S2x512, .f32⟩
  | .hbm, ⟨6, _⟩ => ⟨S2x512x1, .f32⟩
  | .hbm, ⟨7, _⟩ => ⟨S2x4096x3, .f32⟩
  | .hbm, ⟨8, _⟩ => ⟨S_, .f32⟩
  | .hbm, ⟨9, _⟩ => ⟨S2x4096, .f32⟩
  | .hbm, ⟨10, _⟩ => ⟨S2x1x4096, .f32⟩
  | .hbm, ⟨11, _⟩ => ⟨S2x512x4096, .f32⟩
  | .hbm, ⟨12, _⟩ => ⟨S2x512x4096, .f32⟩
  | .hbm, ⟨13, _⟩ => ⟨S2x512x4096, .f32⟩
  | .hbm, ⟨14, _⟩ => ⟨S2x512x4096, .f32⟩
  | .hbm, ⟨15, _⟩ => ⟨S_, .f32⟩
  | .hbm, ⟨16, _⟩ => ⟨S2x512x4096, .f32⟩
  | .hbm, ⟨17, _⟩ => ⟨S2x512x4096, .f32⟩
  | .hbm, ⟨18, _⟩ => ⟨S2x512x4096, .f32⟩
  | .hbm, ⟨19, _⟩ => ⟨S_, .f32⟩
  | .hbm, ⟨20, _⟩ => ⟨S2x512x4096, .f32⟩
  | .hbm, ⟨21, _⟩ => ⟨S2x512x4096, .f32⟩
  | .hbm, ⟨22, _⟩ => ⟨S_, .f32⟩
  | .hbm, ⟨23, _⟩ => ⟨S2x512x4096, .f32⟩
  | .hbm, ⟨24, _⟩ => ⟨S2x512x4096, .i1⟩
  | .hbm, ⟨25, _⟩ => ⟨S2x512x4096x1, .i1⟩
  | .hbm, ⟨26, _⟩ => ⟨S2x1x4096x32, .f32⟩
  | .hbm, ⟨27, _⟩ => ⟨S_, .f32⟩
  | .hbm, ⟨28, _⟩ => ⟨S2x512x4096x32, .i1⟩
  | .hbm, ⟨29, _⟩ => ⟨S2x512x4096x32, .f32⟩
  | .hbm, ⟨30, _⟩ => ⟨S2x512x4096x32, .f32⟩
  | .hbm, ⟨31, _⟩ => ⟨S2x512x4096x32, .f32⟩
  | .hbm, ⟨32, _⟩ => ⟨S_, .f32⟩
  | .hbm, ⟨33, _⟩ => ⟨S2x512x32, .f32⟩
  | .hbm, ⟨34, _⟩ => ⟨S_, .i1⟩
  | .hbm, ⟨35, _⟩ => ⟨S2x512, .i1⟩
  | .hbm, ⟨36, _⟩ => ⟨S2x512, .i1⟩
  | .hbm, ⟨37, _⟩ => ⟨S2x512x1, .i1⟩
  | .hbm, ⟨38, _⟩ => ⟨S_, .f32⟩
  | .hbm, ⟨39, _⟩ => ⟨S2x512x32, .i1⟩
  | .hbm, ⟨40, _⟩ => ⟨S2x512x32, .f32⟩
  | .hbm, ⟨41, _⟩ => ⟨S2x512x32, .f32⟩
  | _, _ => ⟨S2x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_call1_v0 : Ref sig .tc := ⟨.hbm, 39, rfl⟩
abbrev main_call1_v1 : Ref sig .tc := ⟨.hbm, 40, rfl⟩
abbrev main_v24 : Ref sig .tc := ⟨.hbm, 41, rfl⟩

abbrev nD : Nat := 1
abbrev τ : Topo := Topo.v7x

variable {F : FTy → Type} [FloatOps F]

class Facts₀ : Prop where
  reducesTo_S2x512x3_S2x512_d2 : S2x512x3.ReducesTo [2] S2x512
  h_S_ : 0 < S_.numel
  bcast_S2x512_S2x512x1_0_1 : S2x512.BroadcastsInDim S2x512x1 (![0, 1] : Fin 2 → Fin S2x512x1.rank)
  reducesTo_S2x4096x3_S2x4096_d2 : S2x4096x3.ReducesTo [2] S2x4096
  bcast_S2x4096_S2x1x4096_0_2 : S2x4096.BroadcastsInDim S2x1x4096 (![0, 2] : Fin 2 → Fin S2x1x4096.rank)
  bcast_S2x512x1_S2x512x4096_0_1_2 : S2x512x1.BroadcastsInDim S2x512x4096 (![0, 1, 2] : Fin 3 → Fin S2x512x4096.rank)
  bcast_S2x1x4096_S2x512x4096_0_1_2 : S2x1x4096.BroadcastsInDim S2x512x4096 (![0, 1, 2] : Fin 3 → Fin S2x512x4096.rank)
  bcast_S_S2x512x4096 : S_.BroadcastsInDim S2x512x4096 (![] : Fin 0 → Fin S2x512x4096.rank)
  bcast_S2x512x4096_S2x512x4096x1_0_1_2 : S2x512x4096.BroadcastsInDim S2x512x4096x1 (![0, 1, 2] : Fin 3 → Fin S2x512x4096x1.rank)
  bcast_S2x4096x32_S2x1x4096x32_0_2_3 : S2x4096x32.BroadcastsInDim S2x1x4096x32 (![0, 2, 3] : Fin 3 → Fin S2x1x4096x32.rank)
  bcast_S2x512x4096x1_S2x512x4096x32_0_1_2_3 : S2x512x4096x1.BroadcastsInDim S2x512x4096x32 (![0, 1, 2, 3] : Fin 4 → Fin S2x512x4096x32.rank)
  bcast_S2x1x4096x32_S2x512x4096x32_0_1_2_3 : S2x1x4096x32.BroadcastsInDim S2x512x4096x32 (![0, 1, 2, 3] : Fin 4 → Fin S2x512x4096x32.rank)
  bcast_S_S2x512x4096x32 : S_.BroadcastsInDim S2x512x4096x32 (![] : Fin 0 → Fin S2x512x4096x32.rank)
  reducesTo_S2x512x4096x32_S2x512x32_d2 : S2x512x4096x32.ReducesTo [2] S2x512x32
  reducesTo_S2x512x4096_S2x512_d2 : S2x512x4096.ReducesTo [2] S2x512
  bcast_S2x512x1_S2x512x32_0_1_2 : S2x512x1.BroadcastsInDim S2x512x32 (![0, 1, 2] : Fin 3 → Fin S2x512x32.rank)
  bcast_S_S2x512x32 : S_.BroadcastsInDim S2x512x32 (![] : Fin 0 → Fin S2x512x32.rank)
  dot_S2x512x3_S2x4096x3_S2x512x4096_2_2_1_1_0_0_wf : DotDims.WF S2x512x3 S2x4096x3 S2x512x4096 [2] [2] [1] [1] [0] [0]

variable [Facts₀]

def dot_S2x512x3_S2x4096x3_S2x512x4096_2_2_1_1_0_0 : DotDims S2x512x3 S2x4096x3 S2x512x4096 where
  lhsContracting := [2]
  rhsContracting := [2]
  lhsNonContracting := [1]
  rhsNonContracting := [1]
  lhsBatch := [0]
  rhsBatch := [0]
  wf := dot_S2x512x3_S2x4096x3_S2x512x4096_2_2_1_1_0_0_wf

class Facts : Prop extends Facts₀ where

variable [Facts]
-- ==== Proof.BallPool.lean ====
/-
  Ball query with a channel-wise max pool: the value of ONE output entry, and the one law the two programs
  need.

  A query point `Q` and a data point `P` (three coordinates each, extended reals) are NEAR when the squared distance,
  written by the Gram expansion `|Q|² + |P|² - 2 ⟨Q, P⟩` and clipped below at zero, is at most the squared radius
  (the f32 word of 0.0144). For one query and one channel, `n p` the nearness bit of data point `p` and `f p` that
  point's feature in the channel, the entry is the largest `f p` over the near points — every far point replaced by
  the most negative finite f32 before the maximum is taken from `-∞` — and `0` when no point is near.

  Two spellings of "some point is near" occur. One ORs the bits. The other takes the maximum over the points of the
  indicator (`1` where near, `0` where far), again from `-∞`, and asks whether it exceeds `0`. They are the same bit
  (`indicator_max_pos`): the maximum of a family of zeros and ones, started below both, is positive exactly when a one
  occurs. A select on the complemented bit is the select on the bit with its branches exchanged (`select_not`).
  Nothing here needs the inputs finite: the same extended-real operations are applied to the same entries on both sides.
-/
import Idealize.ShloMosaic.PureOps.Ideal.Laws
import Idealize.ShloMosaic.Lib.ValueIdx

noncomputable section

namespace Cert.BallPool

open Idealize.ShloMosaic Idealize.ShloMosaic.ValueIdx

/-- The radius test of a query point against a data point. -/
def near (Q P : Fin 3 → EReal) : BitVec 1 :=
  Ideal.cmp .ole
    (max (((∑ k, Q k * Q k) + (∑ k, P k * P k)) - Ideal.ofBits .f32 0x40000000#32 * (∑ k, Q k * P k))
      (Ideal.ofBits .f32 0x00000000#32))
    (Ideal.ofBits .f32 0x3C6BEDFA#32)

/-- One entry: the largest feature over the near points, `0` when there is none. -/
def pooled {ι : Type} [Fintype ι] (n : ι → BitVec 1) (f : ι → EReal) : EReal :=
  Scalar.select (Finset.univ.fold IntOp.ori 0#1 n)
    (Finset.univ.fold max (Ideal.ofBits .f32 0xFF800000#32)
      (fun p => Scalar.select (n p) (f p) (Ideal.ofBits .f32 0xFF7FFFFF#32)))
    (Ideal.ofBits .f32 0x00000000#32)

/-- The whole result: entry `(b, q, c)` pools channel `c` of batch `b`'s features over the points near query `q`. -/
def result (pts : (⟨3, ![2, 4096, 3]⟩ : Shape).Idx → EReal) (qs : (⟨3, ![2, 512, 3]⟩ : Shape).Idx → EReal)
    (fts : (⟨3, ![2, 4096, 32]⟩ : Shape).Idx → EReal) : (⟨3, ![2, 512, 32]⟩ : Shape).Idx → EReal :=
  fun i => pooled (fun p : Fin 4096 => near (fun k => qs (ix3 (i 0) (i 1) k)) (fun k => pts (ix3 (i 0) p k)))
    (fun p : Fin 4096 => fts (ix3 (i 0) p (i 2)))

/-! ## One-bit words -/

theorem bit_cases (a : BitVec 1) : a = 1#1 ∨ a = 0#1 := by
  by_cases h : a = 1#1
  · exact Or.inl h
  · exact Or.inr (eq_zero_of_ne_one h)

/-- The OR of two bits is set exactly when one of them is. -/
theorem ori_eq_one_iff (a b : BitVec 1) : IntOp.ori a b = 1#1 ↔ a = 1#1 ∨ b = 1#1 := by
  rcases bit_cases a with rfl | rfl <;> rcases bit_cases b with rfl | rfl <;> decide

/-- The OR over a finite family of bits, from the clear bit, is set exactly when a member is. -/
theorem fold_ori_eq_one_iff {ι : Type} [DecidableEq ι] (s : Finset ι) (n : ι → BitVec 1) :
    s.fold IntOp.ori 0#1 n = 1#1 ↔ ∃ p ∈ s, n p = 1#1 := by
  induction s using Finset.induction_on with
  | empty => simp
  | insert a s ha ih =>
    rw [Finset.fold_insert ha, ori_eq_one_iff, ih]
    constructor
    · rintro (h | ⟨p, hp, h⟩)
      · exact ⟨a, Finset.mem_insert_self a s, h⟩
      · exact ⟨p, Finset.mem_insert_of_mem hp, h⟩
    · rintro ⟨p, hp, h⟩
      rcases Finset.mem_insert.mp hp with rfl | hp
      · exact Or.inl h
      · exact Or.inr ⟨p, hp, h⟩

/-- Selecting on the complement of a bit exchanges the branches. -/
theorem select_not {α : Type} (a : BitVec 1) (x y : α) : Scalar.select (~~~a) x y = Scalar.select a y x := by
  rcases bit_cases a with rfl | rfl
  · rw [show ~~~(1#1 : BitVec 1) = 0#1 by decide, select_zero, select_one]
  · rw [show ~~~(0#1 : BitVec 1) = 1#1 by decide, select_zero, select_one]

/-! ## The indicator's maximum -/

theorem ofBits_one : Ideal.ofBits .f32 0x3F800000#32 = 1 := by
  simp [Ideal.ofBits, Ideal.ieee, -EReal.coe_mul]; norm_num

theorem ofBits_neg_inf : Ideal.ofBits .f32 0xFF800000#32 = ⊥ := by simp [Ideal.ofBits, Ideal.ieee]

/-- The indicator of a bit is positive exactly when the bit is set. -/
theorem indicator_pos_iff (a : BitVec 1) :
    (0 : EReal) < Scalar.select a (Ideal.ofBits .f32 0x3F800000#32) (Ideal.ofBits .f32 0x00000000#32) ↔ a = 1#1 := by
  rcases bit_cases a with rfl | rfl
  · rw [select_one, ofBits_one]; exact ⟨fun _ => rfl, fun _ => zero_lt_one⟩
  · rw [select_zero, Ideal.ofBits_zero_f32]; exact ⟨fun h => absurd h (lt_irrefl _), fun h => absurd h (by decide)⟩

/-- "The maximum of the indicators, taken from `-∞`, exceeds zero" is the OR of the bits. -/
theorem indicator_max_pos {ι : Type} [Fintype ι] (n : ι → BitVec 1) :
    Ideal.cmp .ogt
        (Finset.univ.fold max (Ideal.ofBits .f32 0xFF800000#32)
          (fun p => Scalar.select (n p) (Ideal.ofBits .f32 0x3F800000#32) (Ideal.ofBits .f32 0x00000000#32)))
        (Ideal.ofBits .f32 0x00000000#32)
      = Finset.univ.fold IntOp.ori 0#1 n := by
  classical
  have hmax : (0 : EReal) < Finset.univ.fold max (Ideal.ofBits .f32 0xFF800000#32)
        (fun p => Scalar.select (n p) (Ideal.ofBits .f32 0x3F800000#32) (Ideal.ofBits .f32 0x00000000#32))
      ↔ ∃ p ∈ (Finset.univ : Finset ι), n p = 1#1 := by
    rw [Finset.lt_fold_max, ofBits_neg_inf]
    constructor
    · rintro (h | ⟨p, hp, h⟩)
      · exact absurd h (not_lt_bot)
      · exact ⟨p, hp, (indicator_pos_iff _).mp h⟩
    · rintro ⟨p, hp, h⟩
      exact Or.inr ⟨p, hp, (indicator_pos_iff _).mpr h⟩
  generalize Finset.univ.fold max (Ideal.ofBits .f32 0xFF800000#32)
    (fun p => Scalar.select (n p) (Ideal.ofBits .f32 0x3F800000#32) (Ideal.ofBits .f32 0x00000000#32)) = X at hmax ⊢
  unfold Ideal.cmp
  rw [Ideal.ofBits_zero_f32]
  by_cases h : ∃ p ∈ (Finset.univ : Finset ι), n p = 1#1
  · rw [(fold_ori_eq_one_iff _ n).mpr h]
    simp [hmax.mpr h]
  · rw [eq_zero_of_ne_one (fun e => h ((fold_ori_eq_one_iff _ n).mp e))]
    have hX : ¬ (0 : EReal) < X := fun e => h (hmax.mp e)
    simp [hX]

end Cert.BallPool

end
-- ==== Proof.LibRowsCols.lean ====
/-
  Rows and columns of a rank-2 vector read at an index, at any extents.

  A vector of `a` entries viewed as an `a × 1` column reads its entry at every `(i, 0)`; a column spread across `b`
  lanes reads, at `(i, j)`, the column's entry `i`. A sum over the lane axis of an `a × b` vector, at row `i`, is the
  sum of that row's entries; over the sublane axis, at lane `j`, the sum of that lane's column. A maximum over the lane
  axis, at row `i`, is the maximum of the row's entries taken from the accumulator's value, in any order.
-/
import Idealize.ShloMosaic.PureOps.Ideal.Laws
import Idealize.ShloMosaic.Lib.Pipeline.Value
import Idealize.ShloMosaic.Lib.ValueIdx

noncomputable section

namespace Idealize.ShloMosaic.RowsCols

open Idealize.ShloMosaic Idealize.ShloMosaic.ValueIdx

variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

variable {φ : FTy}

/-- The sum over the lanes of an `[a, b]` vector, at row `i`: the sum of the row. -/
theorem laneSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  rw [Ideal.multiReduction_add_single]
  show ∑ k : Fin b, src (h.lift (ix1 i) k) = _
  refine Finset.sum_congr rfl fun k _ => congrArg src (funext fun c => Fin.ext ?_)
  match c with
  | ⟨0, _⟩ => rfl
  | ⟨1, _⟩ => rfl

/-- The sum over the sublanes of an `[a, b]` vector, at lane `j`: the sum of the column. -/
theorem sublaneSum_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) := by
  rw [Ideal.multiReduction_add_single]
  show ∑ k : Fin a, src (h.lift (ix1 j) k) = _
  refine Finset.sum_congr rfl fun k _ => congrArg src (funext fun c => Fin.ext ?_)
  match c with
  | ⟨0, _⟩ => rfl
  | ⟨1, _⟩ => rfl

/-- The maximum over the lanes of an `[a, b]` vector, at row `i`: the maximum of the row, from the accumulator's value. -/
theorem laneMax_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  show (Finset.univ : Finset (Fin b)).fold max (Ideal.ofBits φ acc) (src ∘ h.lift (ix1 i)) = _
  refine congrArg (fun g => (Finset.univ : Finset (Fin b)).fold max (Ideal.ofBits φ acc) g)
    (funext fun k => congrArg src (funext fun c => Fin.ext ?_))
  match c with
  | ⟨0, _⟩ => rfl
  | ⟨1, _⟩ => rfl

end Idealize.ShloMosaic.RowsCols

end
-- ==== Proof.Channel.lean ====
/-
  One query row of the kernel's block computation, read at an index.

  The body holds a query block `Qb` (512 × 3), the batch's points transposed `Pb` (3 × 4096: coordinate `k` of point
  `p` at `(k, p)`) and its features transposed `Fb` (32 × 4096). It forms the 512 × 4096 table of nearness bits — entry
  `(q, p)` compares `|Q_q|² + |P_p|² - 2 (Q_q0 P_p0 + Q_q1 P_p1 + Q_q2 P_p2)`, clipped at zero, with the squared radius:
  the three-term inner product written out is the sum over the three coordinates (`nearBit_apply`) —, a 512 × 1 column
  saying which queries have a near point (`anyBit_apply`: the lane maximum of the bits' indicator exceeds zero, which
  is the OR of the row's bits), and per channel `c` a 512 × 1 column: the lane maximum of row `c` of `Fb` where near and
  the most negative finite value elsewhere, kept where the query has a near point and zero otherwise (`channel`,
  `channel_apply`). Together: entry `(q, 0)` of channel `c`'s column is `BallPool.pooled` of the row's bits and of
  channel `c`'s features.
-/
import proofs.«418934_j23880018165847_3_alg».proof.Proof.Gen.KernelIdeal.Skeleton
import proofs.«418934_j23880018165847_3_alg».proof.Proof.BallPool
import proofs.«418934_j23880018165847_3_alg».proof.Proof.LibRowsCols
import Idealize.ShloMosaic.Lib.ValueLayout

noncomputable section

namespace Cert.KernelIdeal.Channel

open Cert.KernelIdeal Cert.KernelIdeal.Gen Idealize.ShloMosaic Idealize.ShloMosaic.ValueIdx
open Idealize.ShloMosaic.RowsCols Cert.BallPool

/-! ## The nearness table -/

section Table

variable (Qv : FVec Ideal S512x3 .f32) (Pv : FVec Ideal S3x4096 .f32)

/-- The squared norm of query `q`, spread along its row of the table. -/
theorem qnorm_apply (q : Fin 512) (p : Fin 4096) :
    broadcastTo S512x4096 (shapeCast S512x1 (multiReduction .add [1] S512 (mulf Qv Qv) 0x00000000#32
        reduces_S512x3_S512 (.inl rfl) rfl) shapeCasts_S512_S512x1) broadcasts_S512x1_S512x4096 (ix2 q p)
      = ∑ k : Fin 3, Qv (ix2 q k) * Qv (ix2 q k) :=
  (broadcastTo_a1_ab_apply _ _ q p).trans ((shapeCast_a_a1_apply _ _ q 0).trans (laneSum_apply _ _ _ _ _ q))

/-- The squared norm of point `p`, spread down its column of the table. -/
theorem pnorm_apply (q : Fin 512) (p : Fin 4096) :
    broadcastTo S512x4096 (shapeCast S1x4096 (multiReduction .add [0] S4096 (mulf Pv Pv) 0x00000000#32
        reduces_S3x4096_S4096 (.inl rfl) rfl) shapeCasts_S4096_S1x4096) broadcasts_S1x4096_S512x4096 (ix2 q p)
      = ∑ k : Fin 3, Pv (ix2 k p) * Pv (ix2 k p) :=
  (broadcastTo_1b_ab_apply _ _ q p).trans ((shapeCast_a_1a_apply _ _ 0 p).trans (sublaneSum_apply _ _ _ _ _ p))

/-- Coordinate `k` of the queries, spread along the rows. -/
theorem qcoord_apply (o : Nat) (k : Fin 3) (hk : k.val = o) (h : S512x3.Slices ![0, o] S512x1) (q : Fin 512)
    (p : Fin 4096) :
    broadcastTo S512x4096 (extractStridedSlice S512x1 ![0, o] Qv h) broadcasts_S512x1_S512x4096 (ix2 q p)
      = Qv (ix2 q k) :=
  (broadcastTo_a1_ab_apply _ _ q p).trans (slice2_axis1_apply o Qv h q 0 k (by simp [hk]))

/-- Coordinate `k` of the points, spread down the columns. -/
theorem pcoord_apply (o : Nat) (k : Fin 3) (hk : k.val = o) (h : S3x4096.Slices ![o, 0] S1x4096) (q : Fin 512)
    (p : Fin 4096) :
    broadcastTo S512x4096 (extractStridedSlice S1x4096 ![o, 0] Pv h) broadcasts_S1x4096_S512x4096 (ix2 q p)
      = Pv (ix2 k p) :=
  (broadcastTo_1b_ab_apply _ _ q p).trans (slice2_axis0_apply o Pv h 0 p k (by simp [hk]))

end Table

/-- Entry `(q, p)` of the body's nearness table is the radius test of query `q` against point `p`. -/
theorem nearBit_apply (Qb : Vec Ideal S1x512x3 .f32) (Pb : Vec Ideal S1x3x4096 .f32) (q : Fin 512) (p : Fin 4096) :
    k0_pay6 (F := Ideal) Qb Pb (ix2 q p)
      = near (fun k => Qb (ix3 (0 : Fin 1) q k)) (fun k => Pb (ix3 (0 : Fin 1) k p)) := by
  unfold k0_pay6
  dsimp only
  simp only [cmpf_apply, maximumf_apply, subf_apply, addf_apply, mulf_apply, broadcast_apply]
  rw [qnorm_apply, pnorm_apply,
    qcoord_apply _ 0 (0 : Fin 3) rfl slices_S512x3_o0_0_S512x1, qcoord_apply _ 1 (1 : Fin 3) rfl slices_S512x3_o0_1_S512x1,
    qcoord_apply _ 2 (2 : Fin 3) rfl slices_S512x3_o0_2_S512x1,
    pcoord_apply _ 0 (0 : Fin 3) rfl slices_S3x4096_o0_0_S1x4096, pcoord_apply _ 1 (1 : Fin 3) rfl slices_S3x4096_o1_0_S1x4096,
    pcoord_apply _ 2 (2 : Fin 3) rfl slices_S3x4096_o2_0_S1x4096]
  simp only [shapeCast_1ab_ab_apply]
  unfold near
  rw [Fin.sum_univ_three (fun k => Qb (ix3 (0 : Fin 1) q k) * Pb (ix3 (0 : Fin 1) k p))]
  rfl

/-! ## Which queries have a near point -/

/-- Entry `(q, 0)` of the column "this query has a near point": the OR of the row's nearness bits. -/
theorem anyBit_apply (n : IVec S512x4096 1) (q : Fin 512) :
    k0_pay8 (F := Ideal)
        (select n (broadcast S512x4096 (Scalar.ofBits .f32 0x3F800000#32)) (broadcast S512x4096 (Scalar.ofBits .f32 0x00000000#32)))
        (ix2 q (0 : Fin 1))
      = Finset.univ.fold IntOp.ori 0#1 (fun p : Fin 4096 => n (ix2 q p)) := by
  unfold k0_pay8
  dsimp only
  refine (shapeCast_a_a1_apply _ _ q 0).trans ?_
  rw [cmpf_apply, broadcast_apply]
  refine (congrArg (fun x => FloatOps.cmpf (F := Ideal) (φ := .f32) .ogt x (Scalar.ofBits .f32 0x00000000#32))
    (laneMax_apply _ _ _ _ _ q)).trans ?_
  exact indicator_max_pos (fun p : Fin 4096 => n (ix2 q p))

/-! ## One channel's column -/

/-- Channel `c`'s column from the transposed features `Fv`, the nearness table `n` and the column `a` of queries that
    have a near point: per query the lane maximum of row `c` of `Fv` where near and of the most negative finite value
    elsewhere, kept where `a` is set and zero otherwise. -/
def channel {F : FTy → Type} [FloatOps F] (c : Nat) (h : S32x4096.Slices ![c, 0] S1x4096) (Fv : FVec F S32x4096 .f32)
    (n : IVec S512x4096 1) (a : IVec S512x1 1) : FVec F S512x1 .f32 :=
  select a
    (shapeCast S512x1 (multiReduction .maximumf [1] S512
      (select n (broadcastTo S512x4096 (shapeCast S1x4096 (extractStridedSlice S1x4096 ![c, 0] Fv h) shapeCasts_S1x4096_S1x4096)
          broadcasts_S1x4096_S512x4096)
        (broadcast S512x4096 (Scalar.ofBits .f32 0xFF7FFFFF#32)))
      0xFF800000#32 reduces_S512x4096_S512 (.inl rfl) rfl) shapeCasts_S512_S512x1)
    (broadcast S512x1 (Scalar.ofBits .f32 0x00000000#32))

/-- Row `c` of the transposed features, spread down the columns of the table. -/
theorem frow_apply (Fv : FVec Ideal S32x4096 .f32) (c : Fin 32) (h : S32x4096.Slices ![c.val, 0] S1x4096)
    (q : Fin 512) (p : Fin 4096) :
    broadcastTo S512x4096 (shapeCast S1x4096 (extractStridedSlice S1x4096 ![c.val, 0] Fv h) shapeCasts_S1x4096_S1x4096)
        broadcasts_S1x4096_S512x4096 (ix2 q p)
      = Fv (ix2 c p) := by
  rw [shapeCast_self]
  exact (broadcastTo_1b_ab_apply _ _ q p).trans (slice2_axis0_apply c.val Fv h 0 p c (by simp))

/-- Entry `(q, 0)` of channel `c`'s column. -/
theorem channel_apply (Fv : FVec Ideal S32x4096 .f32) (n : IVec S512x4096 1) (a : IVec S512x1 1) (c : Fin 32)
    (h : S32x4096.Slices ![c.val, 0] S1x4096) (q : Fin 512) :
    channel (F := Ideal) c.val h Fv n a (ix2 q (0 : Fin 1))
      = Scalar.select (a (ix2 q (0 : Fin 1)))
          (Finset.univ.fold max (Ideal.ofBits .f32 0xFF800000#32)
            (fun p : Fin 4096 => Scalar.select (n (ix2 q p)) (Fv (ix2 c p)) (Ideal.ofBits .f32 0xFF7FFFFF#32)))
          (Ideal.ofBits .f32 0x00000000#32) := by
  unfold channel
  rw [select_apply, broadcast_apply]
  refine congrArg (fun x => Scalar.select (a (ix2 q (0 : Fin 1))) x (Scalar.ofBits (F := Ideal) .f32 0x00000000#32)) ?_
  refine (shapeCast_a_a1_apply _ _ q 0).trans ((laneMax_apply _ _ _ _ _ q).trans ?_)
  refine congrArg (fun g => (Finset.univ : Finset (Fin 4096)).fold max (Ideal.ofBits .f32 0xFF800000#32) g) (funext fun p => ?_)
  rw [select_apply, broadcast_apply, frow_apply]
  rfl

/-- So with the body's own table and column, entry `(q, 0)` of channel `c` is the pooled value of query `q`: the largest
    feature of channel `c` over the points near the query, zero when there is none. -/
theorem channel_pooled (Qb : Vec Ideal S1x512x3 .f32) (Pb : Vec Ideal S1x3x4096 .f32) (Fv : FVec Ideal S32x4096 .f32)
    (c : Fin 32) (h : S32x4096.Slices ![c.val, 0] S1x4096) (q : Fin 512) :
    channel (F := Ideal) c.val h Fv (k0_pay6 Qb Pb) (k0_pay8 (k0_pay7 Qb Pb)) (ix2 q (0 : Fin 1))
      = pooled (fun p : Fin 4096 => near (fun k => Qb (ix3 (0 : Fin 1) q k)) (fun k => Pb (ix3 (0 : Fin 1) k p)))
          (fun p : Fin 4096 => Fv (ix2 c p)) := by
  rw [channel_apply]
  have hany : k0_pay8 (F := Ideal) (k0_pay7 Qb Pb) (ix2 q (0 : Fin 1))
      = Finset.univ.fold IntOp.ori 0#1 (fun p : Fin 4096 => k0_pay6 (F := Ideal) Qb Pb (ix2 q p)) :=
    anyBit_apply (k0_pay6 Qb Pb) q
  rw [hany]
  simp only [nearBit_apply]
  rfl

end Cert.KernelIdeal.Channel

end
-- ==== Proof.Block.lean ====
/-
  The idealized kernel's result array is `BallPool.result` of its arguments.

  Each grid point is a batch `b`. Its input blocks are batch `b` of the queries (512 × 3), of the points transposed on
  the host (3 × 4096) and of the features transposed on the host (32 × 4096); its output block is batch `b` of the
  result (512 × 32). What the body stores is the concatenation, along the channel axis, of thirty-two 512 × 1 columns;
  column `c` is `Channel.channel` at row `c` of the features (`stored_eq`: the thirty-two written-out columns are that
  one family), so entry `(q, c)` of the block is the pooled value of query `q` in channel `c` (`out_apply`). Read through
  the windows — a block's coordinate is its index times its extent plus the coordinate inside it, and a transposed
  array at `(b, k, p)` is the argument at `(b, p, k)` — that is entry `(b, q, c)` of `BallPool.result` (`flushed_eq`).
  The two blocks fill the array (`cover`), so the array ends at `BallPool.result` (`final`, `run`).
-/
import proofs.«418934_j23880018165847_3_alg».proof.Proof.KernelIdealFrameP
import proofs.«418934_j23880018165847_3_alg».proof.Proof.Channel
import Idealize.ShloMosaic.Lib.Pipeline.Value
import Idealize.ShloMosaic.Lib.ValueLayout
import Idealize.ShloMosaic.Lib.StableHlo.Run

noncomputable section

namespace Cert.KernelIdeal.Block

open Cert.KernelIdeal Cert.KernelIdeal.Gen Cert.KernelIdeal.GenP Cert.KernelIdeal.Channel Cert.BallPool
open Idealize.ShloMosaic Idealize.ShloMosaic.TcCoe Idealize.ShloMosaic.ValueIdx Idealize.SL.Sem Idealize.ShloMosaic.StableHlo
open Idealize.ShloMosaic.Pipeline (Dat)

/-! ## The stored block -/

theorem offsets_zero : (![0, 0, 0] : Fin 3 → Nat) = fun _ => 0 := funext fun a => by fin_cases a <;> rfl

/-- Row `n` of the 32 × 4096 transposed features is a 1 × 4096 slice of it. -/
theorem slices_row (n : Fin 32) : S32x4096.Slices ![n.val, 0] S1x4096 :=
  ⟨rfl, fun a => by
    match a with
    | ⟨0, _⟩ => show n.val + 1 ≤ 32; omega
    | ⟨1, _⟩ => show 0 + 4096 ≤ 4096; omega⟩

/-- The thirty-two columns the body concatenates, as one family over the channel. -/
def columns {F : FTy → Type} [FloatOps F] (Qb : Vec F S1x512x3 .f32) (Pb : Vec F S1x3x4096 .f32) (Fb : Vec F S1x32x4096 .f32) :
    Fin 32 → FVec F S512x1 .f32 :=
  fun n => channel n.val (slices_row n) (k0_pay5 Fb) (k0_pay6 Qb Pb) (k0_pay8 (k0_pay7 Qb Pb))

set_option maxRecDepth 65536 in
/-- The stored value is the concatenation of that family: each written-out column unfolds to its member. -/
theorem stored_eq {F : FTy → Type} [FloatOps F] (Qb : Vec F S1x512x3 .f32) (Pb : Vec F S1x3x4096 .f32) (Fb : Vec F S1x32x4096 .f32) :
    stored0_3 Qb Pb Fb
      = k0_pay4 (concatenate S512x32 1
          (List.ofFn fun n : Fin 32 => (⟨S512x1, columns Qb Pb Fb n⟩ : (s : Shape) × (s.Idx → Elt F .f32)))
          concatenates_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x32_d1) :=
  rfl

/-- Entry `(q, c)` of what the body leaves in the output block: the pooled value of query `q` in channel `c`. -/
theorem out_apply (Qb : Vec Ideal S1x512x3 .f32) (Pb : Vec Ideal S1x3x4096 .f32) (Fb : Vec Ideal S1x32x4096 .f32)
    (u : Fin 1) (q : Fin 512) (c : Fin 32) :
    out0_3 (F := Ideal) Qb Pb Fb (ix3 u q c)
      = pooled (fun p : Fin 4096 => near (fun k => Qb (ix3 (0 : Fin 1) q k)) (fun k => Pb (ix3 (0 : Fin 1) k p)))
          (fun p : Fin 4096 => Fb (ix3 (0 : Fin 1) c p)) := by
  have e : out0_3 (F := Ideal) Qb Pb Fb = stored0_3 (View.ld Qb r0_0) (View.ld Pb r0_1) (View.ld Fb r0_2) :=
    View.canon_unit_zero offsets_zero _ _
  rw [e]
  simp only [View.ld_unit_zero (S := S1x512x3) offsets_zero, View.ld_unit_zero (S := S1x3x4096) offsets_zero,
    View.ld_unit_zero (S := S1x32x4096) offsets_zero]
  rw [stored_eq]
  unfold k0_pay4
  refine (shapeCast_ab_1ab_apply _ _ u q c).trans ?_
  refine (concatenate_ofFn_apply (t := S512x32) (s₁ := S512x1) (1 : Fin 2) (columns Qb Pb Fb) _ rfl 1 rfl (ix2 q c) c
    (by show c.val / 1 = c.val; omega) (ix2 q (0 : Fin 1)) (by show 0 = c.val % 1; omega)
    (fun b hb => by match b with | ⟨0, _⟩ => rfl | ⟨1, _⟩ => exact absurd rfl hb)).trans ?_
  unfold columns
  rw [channel_pooled]
  refine congrArg (pooled _) (funext fun p => ?_)
  unfold k0_pay5
  exact shapeCast_1ab_ab_apply _ _ c p

/-! ## The windows' blocks, read off the arguments -/

variable (m : (ℓ : Loc nD τ sig) → Buf (Elt Ideal) ℓ)

/-- A grid point's batch. -/
def batch (t : Fin cfg0.N) : Fin 2 := ⟨t.val, by have h : t.val < grid0.N := t.isLt; rw [N_0] at h; exact h⟩

/-- Every window's block index at point `t` is `(t, 0, 0)` (decided over the two points). -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The region finds the points transposed. -/
theorem V_points (c : Dev nD) :
    (V m c main_v0 : S2x3x4096.Idx → Elt Ideal .f32)
      = transpose S2x3x4096 [0, 2, 1] (m ((c : Thread nD τ).loc main_arg0)) transposes_S2x4096x3_S2x3x4096_0_2_1 := by
  dsimp only [V, hostOps0]; after_results

/-- The region finds the features transposed. -/
theorem V_features (c : Dev nD) :
    (V m c main_v1 : S2x32x4096.Idx → Elt Ideal .f32)
      = transpose S2x32x4096 [0, 2, 1] (m ((c : Thread nD τ).loc main_arg2)) transposes_S2x4096x32_S2x32x4096_0_2_1 := by
  dsimp only [V, hostOps0]; after_results

/-- The query block at point `t` is batch `t` of the queries. -/
theorem qblock_apply (c : Dev nD) (t : Fin cfg0.N) (u : Fin 1) (q : Fin 512) (k : Fin 3) :
    iblk m c 0 t (ix3 u q k) = m ((c : Thread nD τ).loc main_arg1) (ix3 (batch t) q k) := by
  unfold iblk
  show V m c main_arg1 (((cfg0.win 0).blk t).view.emb (ix3 u q k)) = _
  rw [V_main_arg1]
  refine congrArg _ (funext fun a => Fin.ext ?_)
  obtain ⟨e0, e1, e2, -⟩ := index_facts t
  have hu : u.val = 0 := by omega
  match a with
  | ⟨0, _⟩ => show win0_0.index t (0 : Fin 3) * 1 + 1 * u.val = t.val; omega
  | ⟨1, _⟩ => show win0_0.index t (1 : Fin 3) * 512 + 1 * q.val = q.val; omega
  | ⟨2, _⟩ => show win0_0.index t (2 : Fin 3) * 3 + 1 * k.val = k.val; omega

/-- The transposed-points block at point `t`: coordinate `k` of point `p` of batch `t`. -/
theorem pblock_apply (c : Dev nD) (t : Fin cfg0.N) (u : Fin 1) (k : Fin 3) (p : Fin 4096) :
    iblk m c 1 t (ix3 u k p) = m ((c : Thread nD τ).loc main_arg0) (ix3 (batch t) p k) := by
  unfold iblk
  show V m c main_v0 (((cfg0.win 1).blk t).view.emb (ix3 u k p)) = _
  have hi : ((cfg0.win 1).blk t).view.emb (ix3 u k p) = ix3 (batch t) k p := by
    refine funext fun a => Fin.ext ?_
    obtain ⟨-, -, -, e0, e1, e2, -⟩ := index_facts t
    have hu : u.val = 0 := by omega
    match a with
    | ⟨0, _⟩ => show win0_1.index t (0 : Fin 3) * 1 + 1 * u.val = t.val; omega
    | ⟨1, _⟩ => show win0_1.index t (1 : Fin 3) * 3 + 1 * k.val = k.val; omega
    | ⟨2, _⟩ => show win0_1.index t (2 : Fin 3) * 4096 + 1 * p.val = p.val; omega
  rw [hi, V_points]
  exact transpose_ix3_021_apply _ _ (batch t) k p

/-- The transposed-features block at point `t`: channel `ch` of point `p` of batch `t`. -/
theorem fblock_apply (c : Dev nD) (t : Fin cfg0.N) (u : Fin 1) (ch : Fin 32) (p : Fin 4096) :
    iblk m c 2 t (ix3 u ch p) = m ((c : Thread nD τ).loc main_arg2) (ix3 (batch t) p ch) := by
  unfold iblk
  show V m c main_v1 (((cfg0.win 2).blk t).view.emb (ix3 u ch p)) = _
  have hi : ((cfg0.win 2).blk t).view.emb (ix3 u ch p) = ix3 (batch t) ch p := by
    refine funext fun a => Fin.ext ?_
    obtain ⟨-, -, -, -, -, -, e0, e1, e2, -⟩ := index_facts t
    have hu : u.val = 0 := by omega
    match a with
    | ⟨0, _⟩ => show win0_2.index t (0 : Fin 3) * 1 + 1 * u.val = t.val; omega
    | ⟨1, _⟩ => show win0_2.index t (1 : Fin 3) * 32 + 1 * ch.val = ch.val; omega
    | ⟨2, _⟩ => show win0_2.index t (2 : Fin 3) * 4096 + 1 * p.val = p.val; omega
  rw [hi, V_features]
  exact transpose_ix3_021_apply _ _ (batch t) ch p

/-- Where the output block's entry `(q, ch)` lies in the result array. -/
theorem out_emb (t : Fin cfg0.N) (u : Fin 1) (q : Fin 512) (ch : Fin 32) :
    ((cfg0.win 3).blk t).view.emb (ix3 u q ch) = ix3 (batch t) q ch := by
  refine funext fun a => Fin.ext ?_
  obtain ⟨-, -, -, -, -, -, -, -, -, e0, e1, e2⟩ := index_facts t
  have hu : u.val = 0 := by omega
  match a with
  | ⟨0, _⟩ => show win0_3.index t (0 : Fin 3) * 1 + 1 * u.val = t.val; omega
  | ⟨1, _⟩ => show win0_3.index t (1 : Fin 3) * 512 + 1 * q.val = q.val; omega
  | ⟨2, _⟩ => show win0_3.index t (2 : Fin 3) * 32 + 1 * ch.val = ch.val; omega

/-! ## The array after the run -/

/-- What point `t` writes back is block `t` of `BallPool.result` of the arguments. -/
theorem flushed_eq (c : Dev nD) (t : Fin cfg0.N) :
    (dats m 0 c).flushed 3 t = ((cfg0.win 3).blk t).view.read (Elt Ideal)
      (result (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  funext y
  obtain ⟨u, q, ch, rfl⟩ : ∃ (u : Fin 1) (q : Fin 512) (ch : Fin 32), y = ix3 u q ch := ⟨y 0, y 1, y 2, eq_ix3 y⟩
  show out0_3 (iblk m c 0 t) (iblk m c 1 t) (iblk m c 2 t) (ix3 u q ch)
    = result _ _ _ (((cfg0.win 3).blk t).view.emb (ix3 u q ch))
  rw [out_emb]
  refine (out_apply (iblk m c 0 t) (iblk m c 1 t) (iblk m c 2 t) u q ch).trans ?_
  show pooled _ _ = pooled _ _
  exact congrArg₂ pooled
    (funext fun p => congrArg₂ near (funext fun k => qblock_apply m c t 0 q k) (funext fun k => pblock_apply m c t 0 k p))
    (funext fun p => fblock_apply m c t 0 ch p)

/-- An index of the result array is in point `t`'s block iff each coordinate is in the block's range on its axis. -/
theorem mem_blk (t : Fin cfg0.N) (i : S2x512x32.Idx) :
    i ∈ ((cfg0.win 3).blk t).view.set ↔ ∀ a : Fin 3, win0_3.index t a * S1x512x32.size a ≤ (i a).val
      ∧ (i a).val < win0_3.index t a * S1x512x32.size a + S1x512x32.size a := by
  show i ∈ ((View.whole main_v2).slice (win0_3.rect t)).set ↔ _
  rw [View.set_slice_whole, Rect.mem_set_unit]
  exact Iff.rfl

/-- The two points' blocks fill the result array: entry `(b, q, c)` is in point `b`'s block. -/
theorem cover (i : S2x512x32.Idx) :
    ∃ t : Fin cfg0.N, (cfg0.win 3).flush t = true ∧ i ∈ ((cfg0.win 3).blk t).view.set := by
  have hi0 : (i 0).val < 2 := (i 0).isLt
  have hi1 : (i 1).val < 512 := (i 1).isLt
  have hi2 : (i 2).val < 32 := (i 2).isLt
  have ht : (i 0).val < grid0.N := by rw [N_0]; exact hi0
  refine ⟨⟨(i 0).val, ht⟩, flush0_3 _, ?_⟩
  rw [mem_blk]
  obtain ⟨-, -, -, -, -, -, -, -, -, e0, e1, e2⟩ := index_facts ⟨(i 0).val, ht⟩
  have e0 : win0_3.index ⟨(i 0).val, ht⟩ (0 : Fin 3) = (i 0).val := e0
  intro a
  match a with
  | ⟨0, _⟩ =>
    show win0_3.index ⟨(i 0).val, ht⟩ (0 : Fin 3) * 1 ≤ (i 0).val ∧ (i 0).val < win0_3.index ⟨(i 0).val, ht⟩ (0 : Fin 3) * 1 + 1
    rw [e0]; omega
  | ⟨1, _⟩ =>
    show win0_3.index ⟨(i 0).val, ht⟩ (1 : Fin 3) * 512 ≤ (i 1).val ∧ (i 1).val < win0_3.index ⟨(i 0).val, ht⟩ (1 : Fin 3) * 512 + 512
    rw [e1]; omega
  | ⟨2, _⟩ =>
    show win0_3.index ⟨(i 0).val, ht⟩ (2 : Fin 3) * 32 ≤ (i 2).val ∧ (i 2).val < win0_3.index ⟨(i 0).val, ht⟩ (2 : Fin 3) * 32 + 32
    rw [e2]; omega

/-- The result array after the run. -/
theorem final (c : Dev nD) :
    (dats m 0 c).arrAt 3 cfg0.N
      = result (m ((c : Thread nD τ).loc main_arg0)) (m ((c : Thread nD τ).loc main_arg1)) (m ((c : Thread nD τ).loc main_arg2)) :=
  (dats m 0 c).arrAt_eq_of_cover 3 _ (fun t _ => flushed_eq m c t) cover

/-- The idealized kernel's run: every weakly fair execution terminates with the result array at `BallPool.result` of the
    arguments, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v2)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final m c),
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c)⟩)
    (run_main m ρ)

end Cert.KernelIdeal.Block

end
-- ==== Proof.RefValue.lean ====
/-
  The reference computes `BallPool.result`.

  Read one operation at a time: the squared norms are sums over the three coordinates (each from a zero initial value,
  which adds nothing), the inner products are the contraction over the coordinate axis, so entry `(b, q, p)` of the
  reference's comparison is the radius test of query `(b, q)` against point `(b, p)` (`near_apply`). The features are
  laid over a new query axis, masked by the comparison, and reduced over the point axis by a maximum from `-∞`
  (`pool_apply`); the comparison is OR-reduced over the same axis and complemented (`any_apply`); the final select
  takes zero where the complement is set. A select on a complemented bit is the select on the bit with the branches
  exchanged, which is `BallPool.pooled`'s form.
-/
import proofs.«418934_j23880018165847_3_alg».proof.Proof.RefReadP
import proofs.«418934_j23880018165847_3_alg».proof.Proof.BallPool

noncomputable section

namespace Cert.ReferenceIdeal.RefValue

open Cert.ReferenceIdeal Cert.ReferenceIdeal.Gen Cert.ReferenceIdeal.ReadP
open Idealize.ShloMosaic Idealize.ShloMosaic.ValueIdx Cert.BallPool

variable (pts : (⟨S2x4096x3, .f32⟩ : BufTy).Contents (Elt Ideal)) (qs : (⟨S2x512x3, .f32⟩ : BufTy).Contents (Elt Ideal))
  (fts : (⟨S2x4096x32, .f32⟩ : BufTy).Contents (Elt Ideal))

/-! ## Where each stage reads its operand -/

theorem idx_qnorm (b : Fin 2) (q : Fin 512) (p : Fin 4096) (k : Fin 3) :
    idx_main_v1 (idx_main_v2 (idx_main_v6 (ix3 b q p))) k = ix3 b q k :=
  funext fun a => Fin.ext (by match a with | ⟨0, _⟩ => rfl | ⟨1, _⟩ => rfl | ⟨2, _⟩ => rfl)

theorem idx_pnorm (b : Fin 2) (q : Fin 512) (p : Fin 4096) (k : Fin 3) :
    idx_main_v4 (idx_main_v5 (idx_main_v7 (ix3 b q p))) k = ix3 b p k :=
  funext fun a => Fin.ext (by match a with | ⟨0, _⟩ => rfl | ⟨1, _⟩ => rfl | ⟨2, _⟩ => rfl)

theorem idx_dot_q (b : Fin 2) (q : Fin 512) (p : Fin 4096) (k : Fin 3) : lidx_main_v9 (ix3 b q p) k = ix3 b q k :=
  funext fun a => Fin.ext (by match a with | ⟨0, _⟩ => rfl | ⟨1, _⟩ => rfl | ⟨2, _⟩ => rfl)

theorem idx_dot_p (b : Fin 2) (q : Fin 512) (p : Fin 4096) (k : Fin 3) : ridx_main_v9 (ix3 b q p) k = ix3 b p k :=
  funext fun a => Fin.ext (by match a with | ⟨0, _⟩ => rfl | ⟨1, _⟩ => rfl | ⟨2, _⟩ => rfl)

theorem idx_mask (b : Fin 2) (q : Fin 512) (p : Fin 4096) (c : Fin 32) :
    idx_main_v17 (idx_main_call0_v0 (ix4 b q p c)) = ix3 b q p :=
  funext fun a => Fin.ext (by match a with | ⟨0, _⟩ => rfl | ⟨1, _⟩ => rfl | ⟨2, _⟩ => rfl)

theorem idx_feat (b : Fin 2) (q : Fin 512) (p : Fin 4096) (c : Fin 32) :
    idx_main_v18 (idx_main_call0_v1 (ix4 b q p c)) = ix3 b p c :=
  funext fun a => Fin.ext (by match a with | ⟨0, _⟩ => rfl | ⟨1, _⟩ => rfl | ⟨2, _⟩ => rfl)

theorem idx_empty (b : Fin 2) (q : Fin 512) (c : Fin 32) :
    idx_main_v23 (idx_main_call1_v0 (ix3 b q c)) = ix2 b q :=
  funext fun a => Fin.ext (by match a with | ⟨0, _⟩ => rfl | ⟨1, _⟩ => rfl)

/-! ## The stages -/

/-- Entry `(b, q, p)` of the comparison is the radius test of query `(b, q)` against point `(b, p)`. -/
theorem near_apply (b : Fin 2) (q : Fin 512) (p : Fin 4096) :
    val_main_v16 (F := Ideal) pts qs (ix3 b q p)
      = near (fun k => qs (ix3 b q k)) (fun k => pts (ix3 b p k)) := by
  rw [val_main_v16_apply, val_main_v14_apply, val_main_v12_apply, val_main_v8_apply, val_main_v6_apply, val_main_v2_apply,
    val_main_v1_apply, val_main_v7_apply, val_main_v5_apply, val_main_v4_apply, val_main_v11_apply, val_main_v10_apply,
    val_main_v9_apply, val_main_v13_apply, val_main_v15_apply]
  simp only [val_main_v0_apply, val_main_v3_apply, val_main_cst_apply, val_main_cst_0_apply, val_main_cst_1_apply,
    val_main_cst_2_apply, val_main_cst_3_apply, idx_qnorm, idx_pnorm, idx_dot_q, idx_dot_p, near, Ideal.ofBits_def,
    Ideal.ofBits_zero_f32, zero_add]
  rfl

/-- Entry `(b, q, p, c)` of the masked features: the point's feature where near, the most negative finite value elsewhere. -/
theorem masked_apply (b : Fin 2) (q : Fin 512) (p : Fin 4096) (c : Fin 32) :
    val_main_v19 (F := Ideal) pts qs fts (ix4 b q p c)
      = Scalar.select (near (fun k => qs (ix3 b q k)) (fun k => pts (ix3 b p k))) (fts (ix3 b p c))
          (Ideal.ofBits .f32 0xFF7FFFFF#32) := by
  rw [val_main_v19_apply, val_main_call0_v0_apply, val_main_v17_apply, val_main_call0_v1_apply, val_main_v18_apply,
    val_main_call0_v2_apply, val_main_cst_4_apply, idx_mask, idx_feat, near_apply]
  rfl

/-- Entry `(b, q, c)` of the pooled maximum: the maximum over the points of the masked features, from `-∞`. -/
theorem pool_apply (b : Fin 2) (q : Fin 512) (c : Fin 32) :
    val_main_v20 (F := Ideal) pts qs fts (ix3 b q c)
      = Finset.univ.fold max (Ideal.ofBits .f32 0xFF800000#32)
          (fun p : Fin 4096 => val_main_v19 (F := Ideal) pts qs fts (ix4 b q p c)) := by
  unfold val_main_v20
  generalize val_main_v19 (F := Ideal) pts qs fts = y
  have hR : S2x512x4096x32.Reduces [2] S2x512x32 := by decide
  refine (Host.reduce_eq_fold_single (FloatOps.maximumf (F := Ideal) (φ := .f32)) y (val_main_cst_5 (F := Ideal))
    reducesTo_S2x512x4096x32_S2x512x32_d2 hR h_S_ (ix3 b q c)).trans ?_
  show (Finset.univ : Finset (Fin 4096)).fold max (Ideal.ofBits .f32 0xFF800000#32) (y ∘ hR.lift (ix3 b q c)) = _
  refine congrArg (fun g => (Finset.univ : Finset (Fin 4096)).fold max (Ideal.ofBits .f32 0xFF800000#32) g)
    (funext fun p => congrArg y (funext fun a => Fin.ext ?_))
  match a with
  | ⟨0, _⟩ => rfl
  | ⟨1, _⟩ => rfl
  | ⟨2, _⟩ => rfl
  | ⟨3, _⟩ => rfl

/-- Entry `(b, q)` of "some point is near": the OR over the points of the comparison. -/
theorem any_apply (b : Fin 2) (q : Fin 512) :
    val_main_v21 (F := Ideal) pts qs (ix2 b q)
      = Finset.univ.fold IntOp.ori 0#1 (fun p : Fin 4096 => val_main_v16 (F := Ideal) pts qs (ix3 b q p)) := by
  unfold val_main_v21
  generalize val_main_v16 (F := Ideal) pts qs = y
  have hR : S2x512x4096.Reduces [2] S2x512 := by decide
  refine (Host.reduce_eq_fold_single (IntOp.ori (w := 1)) y (val_main_c (F := Ideal))
    reducesTo_S2x512x4096_S2x512_d2 hR h_S_ (ix2 b q)).trans ?_
  show (Finset.univ : Finset (Fin 4096)).fold IntOp.ori 0#1 (y ∘ hR.lift (ix2 b q)) = _
  refine congrArg (fun g => (Finset.univ : Finset (Fin 4096)).fold IntOp.ori 0#1 g)
    (funext fun p => congrArg y (funext fun a => Fin.ext ?_))
  match a with
  | ⟨0, _⟩ => rfl
  | ⟨1, _⟩ => rfl
  | ⟨2, _⟩ => rfl

/-! ## The result -/

/-- Entry `(b, q, c)` of the reference's result is the pooled value of query `(b, q)` in channel `c`. -/
theorem result_apply (b : Fin 2) (q : Fin 512) (c : Fin 32) :
    val_main_v24 (F := Ideal) pts qs fts (ix3 b q c) = result pts qs fts (ix3 b q c) := by
  rw [val_main_v24_apply, val_main_call1_v0_apply, val_main_v23_apply, val_main_v22_apply, val_main_call1_v1_apply,
    val_main_cst_6_apply, idx_empty, any_apply, pool_apply, select_not]
  simp only [near_apply, masked_apply]
  rfl

/-- The reference's result is `BallPool.result` of its arguments. -/
theorem result_eq : val_main_v24 (F := Ideal) pts qs fts = result pts qs fts := by
  funext i
  rw [eq_ix3 i]
  exact result_apply pts qs fts (i 0) (i 1) (i 2)

end Cert.ReferenceIdeal.RefValue

end
-- ==== Proof.lean ====
/-
  A ball query with a channel-wise max pool: kernel against reference.

  For each batch, each query point gathers the points of the cloud whose squared distance to it — by the Gram expansion
  `|Q|² + |P|² - 2 ⟨Q, P⟩`, clipped below at zero — is at most the squared radius, takes channel by channel the largest
  feature among them (the others replaced by the most negative finite value, the maximum taken from `-∞`), and answers
  zero where no point is near (`BallPool.result`).

  The kernel works a batch per grid point on transposed points and features: it forms the 512 × 4096 table of nearness
  bits from a three-term inner product written out, finds the queries that have a near point as "the lane maximum of
  the bits' indicator exceeds zero", pools each of the thirty-two channels by a lane maximum, and concatenates the
  thirty-two columns (`Channel`, `Block`). The reference contracts the coordinate axis, ORs the bits over the points,
  complements, and selects zero on the complement (`RefValue`). Over the extended reals the two are one function of the
  arguments: the sum over three coordinates is the three terms added, a sum from a zero initial value is the sum, the
  indicator's maximum is positive exactly when some bit is set, and a select on a complemented bit is the select with
  its branches exchanged (`BallPool`). No step needs the inputs finite, so the precondition is never opened.

  The three frames are the two programs' frame runs and the reference's run with its result forgotten; the kernel's
  idealization rewrote nothing, so `preserves` is `True`.
-/
import proofs.«418934_j23880018165847_3_alg».proof.Defs
import proofs.«418934_j23880018165847_3_alg».proof.Proof.Gen.Kernel
import proofs.«418934_j23880018165847_3_alg».proof.Proof.Gen.KernelIdeal
import proofs.«418934_j23880018165847_3_alg».proof.Proof.Gen.ReferenceIdeal
import proofs.«418934_j23880018165847_3_alg».proof.Proof.Gen.Pre_finite_inputs
import proofs.«418934_j23880018165847_3_alg».proof.Proof.KernelFrameP
import proofs.«418934_j23880018165847_3_alg».proof.Proof.KernelIdealFrameP
import proofs.«418934_j23880018165847_3_alg».proof.Proof.Block
import proofs.«418934_j23880018165847_3_alg».proof.Proof.RefRunP
import proofs.«418934_j23880018165847_3_alg».proof.Proof.RefReadP
import proofs.«418934_j23880018165847_3_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.GenP.frame m ρ

/-- So does its reading over the extended reals. -/
theorem frame_kernelIdeal : Cert.frame_KernelIdeal := fun m ρ _ => Cert.KernelIdeal.GenP.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the three arguments both programs end with the result array at `BallPool.result` of
    those arguments: the kernel by `Block.run`, the reference by its run read stage by stage (`RefValue.result_eq`). -/
theorem algebraic : Cert.algebraic_KernelIdeal_ReferenceIdeal := by
  intro m ρ m' ρ' _ hagree
  refine ⟨_, Cert.KernelIdeal.Block.run m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2]
  exact (Cert.ReferenceIdeal.ReadP.val_main_v24_eq _ _ _).trans (Cert.ReferenceIdeal.RefValue.result_eq _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
